-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S16x625x10000 : Shape := ⟨3, ![16, 625, 10000]⟩
abbrev S16x625x128 : Shape := ⟨3, ![16, 625, 128]⟩
abbrev S1x625x10000 : Shape := ⟨3, ![1, 625, 10000]⟩
abbrev S1x625x128 : Shape := ⟨3, ![1, 625, 128]⟩
abbrev S625x10000 : Shape := ⟨2, ![625, 10000]⟩
abbrev S625x128 : Shape := ⟨2, ![625, 128]⟩

abbrev nBuf : Space → Nat
  | .hbm => 6
  | .vmem => 6
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S16x625x10000, .f32⟩
  | .hbm, ⟨4, _⟩ => ⟨S16x625x128, .f32⟩
  | .hbm, ⟨5, _⟩ => ⟨S10000x128, .f32⟩
  | .local _ .vmem, ⟨0, _⟩ => ⟨S1x625x10000, .f32⟩
  | .local _ .vmem, ⟨1, _⟩ => ⟨S1x625x10000, .f32⟩
  | .local _ .vmem, ⟨2, _⟩ => ⟨S10000x128, .f32⟩
  | .local _ .vmem, ⟨3, _⟩ => ⟨S128x128, .f32⟩
  | .local _ .vmem, ⟨4, _⟩ => ⟨S1x625x128, .f32⟩
  | .local _ .vmem, ⟨5, _⟩ => ⟨S1x625x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x625x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x625x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S10000x10000_S16x625x10000 : S10000x10000.ShapeCasts S16x625x10000
  inb_S1x625x10000_S1x625x10000_0_0_0 : ∀ a, (![0, 0, 0] : Fin 3 → Nat) a + S1x625x10000.size a ≤ S1x625x10000.size a
  h_S1x625x10000 : 0 < S1x625x10000.numel
  shapeCasts_S1x625x10000_S625x10000 : S1x625x10000.ShapeCasts S625x10000
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x625x128_S1x625x128_0_0_0 : ∀ a, (![0, 0, 0] : Fin 3 → Nat) a + S1x625x128.size a ≤ S1x625x128.size a
  h_S1x625x128 : 0 < S1x625x128.numel
  shapeCasts_S1x625x128_S625x128 : S1x625x128.ShapeCasts S625x128
  shapeCasts_S625x128_S1x625x128 : S625x128.ShapeCasts S1x625x128
  shapeCasts_S16x625x128_S10000x128 : S16x625x128.ShapeCasts S10000x128
  dot_S625x10000_S10000x128_S625x128_1_0_0_1_n_n_wf : DotDims.WF S625x10000 S10000x128 S625x128 [1] [0] [0] [1] [] []
  dot_S625x128_S128x128_S625x128_1_0_0_1_n_n_wf : DotDims.WF S625x128 S128x128 S625x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x625x10000.size a ≤ S16x625x10000.size a
  hwx0_0 : ∀ i : grid0.Coords, EltTy.bits .f32 = 32 ∨ (Rect.block (s := S16x625x10000) S1x625x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x625x128.size a ≤ S16x625x128.size a
  hwx0_3 : ∀ i : grid0.Coords, EltTy.bits .f32 = 32 ∨ (Rect.block (s := S16x625x128) S1x625x128.size (cc0_transform_3 i) (hinb0_3 i)).WholeWords (EltTy.packing .f32)

variable [Facts₀]

def dot_S625x10000_S10000x128_S625x128_1_0_0_1_n_n : DotDims S625x10000 S10000x128 S625x128 where
  lhsContracting := [1]
  rhsContracting := [0]
  lhsNonContracting := [0]
  rhsNonContracting := [1]
  lhsBatch := []
  rhsBatch := []
  wf := dot_S625x10000_S10000x128_S625x128_1_0_0_1_n_n_wf
def dot_S625x128_S128x128_S625x128_1_0_0_1_n_n : DotDims S625x128 S128x128 S625x128 where
  lhsContracting := [1]
  rhsContracting := [0]
  lhsNonContracting := [0]
  rhsNonContracting := [1]
  lhsBatch := []
  rhsBatch := []
  wf := dot_S625x128_S128x128_S625x128_1_0_0_1_n_n_wf

abbrev win0_0 : Pipeline.Window sig grid0 :=
  Pipeline.Window.ofSpec (Memref.whole main_v0) S1x625x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x625x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnAlgebra.lean ====
/-
  The mathematics of the graph-convolution layer `out = T · X · W` on extended reals, with no program in sight.

  The kernel contracts `T` with `X` first and the result with `W`:  out[p, q] = Σ_k (Σ_j T[p, j] · X[j, k]) · W[k, q];
  the reference contracts `X` with `W` first:                         out[p, q] = Σ_j T[p, j] · (Σ_k X[j, k] · W[k, q]).
  Over the reals the two are one number (distribute, swap the two finite sums, reassociate the product). On the extended
  reals distributivity fails at the infinities, so the law is stated for arrays whose every entry is a real number: then
  every partial sum and product is (the coercion of) a real, and the law is the reals' law under the coercion.
-/
import Idealize.ShloMosaic.PureOps.Ideal
import Idealize.ShloMosaic.Lib.ValueIdx

noncomputable section

open scoped BigOperators

namespace Cert.GcnAlgebra

open Idealize.ShloMosaic Idealize.ShloMosaic.ValueIdx

/-- The coercion of the reals into the extended reals commutes with a finite sum. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple matrix product, one entry, over the reals: distribute both ways, swap the two sums. -/
theorem assoc_real {J K : Type} [Fintype J] [Fintype K] (t : J → ℝ) (x : J → K → ℝ) (w : K → ℝ) :
    ∑ k, (∑ j, t j * x j k) * w k = ∑ j, t j * ∑ k, x j k * w k := by
  simp only [Finset.sum_mul, Finset.mul_sum]
  rw [Finset.sum_comm]
  exact Finset.sum_congr rfl fun j _ => Finset.sum_congr rfl fun k _ => mul_assoc _ _ _

/-- The same entry on the extended reals, when every factor is a real number. -/
theorem assoc_ereal {J K : Type} [Fintype J] [Fintype K] (T : J → EReal) (X : J → K → EReal) (W : K → EReal)
    (hT : ∀ j, ∃ r : ℝ, T j = (r : EReal)) (hX : ∀ j k, ∃ r : ℝ, X j k = (r : EReal)) (hW : ∀ k, ∃ r : ℝ, W k = (r : EReal)) :
    ∑ k, (∑ j, T j * X j k) * W k = ∑ j, T j * ∑ k, X j k * W k := by
  choose t ht using hT
  choose x hx using hX
  choose w hw using hW
  simp only [ht, hx, hw, ← EReal.coe_mul, ← coe_finsum]
  exact congrArg _ (assoc_real t x w)

/-! ## The layer's result, entry (p, q), in the two orders of contraction -/

/-- `T · (X · W)` at entry (p, q): the order the reference contracts in. -/
def rightFirst (T : (⟨2, ![10000, 10000]⟩ : Shape).Idx → EReal) (X : (⟨2, ![10000, 128]⟩ : Shape).Idx → EReal)
    (W : (⟨2, ![128, 128]⟩ : Shape).Idx → EReal) (p : Fin 10000) (q : Fin 128) : EReal :=
  ∑ j : Fin 10000, T (ix2 p j) * ∑ k : Fin 128, X (ix2 j k) * W (ix2 k q)

/-- `(T · X) · W` at entry (p, q): the order the kernel contracts in. -/
def leftFirst (T : (⟨2, ![10000, 10000]⟩ : Shape).Idx → EReal) (X : (⟨2, ![10000, 128]⟩ : Shape).Idx → EReal)
    (W : (⟨2, ![128, 128]⟩ : Shape).Idx → EReal) (p : Fin 10000) (q : Fin 128) : EReal :=
  ∑ k : Fin 128, (∑ j : Fin 10000, T (ix2 p j) * X (ix2 j k)) * W (ix2 k q)

/-- On arrays of real numbers the two orders give the same entry. -/
theorem leftFirst_eq_rightFirst (T : (⟨2, ![10000, 10000]⟩ : Shape).Idx → EReal) (X : (⟨2, ![10000, 128]⟩ : Shape).Idx → EReal)
    (W : (⟨2, ![128, 128]⟩ : Shape).Idx → EReal)
    (hT : ∀ i, ∃ r : ℝ, T i = (r : EReal)) (hX : ∀ i, ∃ r : ℝ, X i = (r : EReal)) (hW : ∀ i, ∃ r : ℝ, W i = (r : EReal))
    (p : Fin 10000) (q : Fin 128) : leftFirst T X W p q = rightFirst T X W p q :=
  assoc_ereal (fun j => T (ix2 p j)) (fun j k => X (ix2 j k)) (fun k => W (ix2 k q))
    (fun _ => hT _) (fun _ _ => hX _) (fun _ => hW _)

/-- The whole result array `[10000, 128]`, in the reference's order: entry `i` is entry (i 0, i 1). -/
def result (T : (⟨2, ![10000, 10000]⟩ : Shape).Idx → EReal) (X : (⟨2, ![10000, 128]⟩ : Shape).Idx → EReal)
    (W : (⟨2, ![128, 128]⟩ : Shape).Idx → EReal) : (⟨2, ![10000, 128]⟩ : Shape).Idx → EReal :=
  fun i => rightFirst T X W ⟨(i 0).val, idx2_lt0 i⟩ ⟨(i 1).val, idx2_lt1 i⟩

end Cert.GcnAlgebra

end
-- ==== Proof.GcnLayout.lean ====
/-
  The kernel's layout. The kernel views `T : [10000, 10000]` as 16 row blocks `A : [16, 625, 10000]` (row `p` of `T` is row
  `p % 625` of block `p / 625`), computes the result block by block into `[16, 625, 128]`, and views that as `[10000, 128]`.
  Both views keep the row-major position, so entry (p, q) of what the kernel returns is entry (p / 625, p % 625, q) of the
  blocked result, which reads row `p` of `T`: the layer's result in the order `(T · X) · W`.
-/
import proofs.«126972_g74569222193317_cont_9to1c4b_800_14_alg».proof.Proof.GcnAlgebra
import Idealize.ShloMosaic.Lib.Pipeline.Value

noncomputable section

open scoped BigOperators

namespace Cert.GcnAlgebra

open Idealize.ShloMosaic Idealize.ShloMosaic.ValueIdx

/-- Entry (g, r, l) of the blocked result: row `r` of block `g` times `X`, then times column `l` of `W`. -/
def blockedAt (A : (⟨3, ![16, 625, 10000]⟩ : Shape).Idx → EReal) (X : (⟨2, ![10000, 128]⟩ : Shape).Idx → EReal)
    (W : (⟨2, ![128, 128]⟩ : Shape).Idx → EReal) (g : Fin 16) (r : Fin 625) (l : Fin 128) : EReal :=
  ∑ k : Fin 128, (∑ j : Fin 10000, A (ix3 g r j) * X (ix2 j k)) * W (ix2 k l)

/-- The blocked result array `[16, 625, 128]`. -/
def blocked (A : (⟨3, ![16, 625, 10000]⟩ : Shape).Idx → EReal) (X : (⟨2, ![10000, 128]⟩ : Shape).Idx → EReal)
    (W : (⟨2, ![128, 128]⟩ : Shape).Idx → EReal) : (⟨3, ![16, 625, 128]⟩ : Shape).Idx → EReal :=
  fun y => blockedAt A X W (y 0) (y 1) (y 2)

/-- What the kernel returns, as a function of its three arguments: the blocked result of the row-blocked `T`, viewed flat. -/
def kernelResult (h1 : (⟨2, ![10000, 10000]⟩ : Shape).ShapeCasts ⟨3, ![16, 625, 10000]⟩)
    (h2 : (⟨3, ![16, 625, 128]⟩ : Shape).ShapeCasts ⟨2, ![10000, 128]⟩)
    (T : (⟨2, ![10000, 10000]⟩ : Shape).Idx → EReal) (X : (⟨2, ![10000, 128]⟩ : Shape).Idx → EReal)
    (W : (⟨2, ![128, 128]⟩ : Shape).Idx → EReal) : (⟨2, ![10000, 128]⟩ : Shape).Idx → EReal :=
  shapeCast ⟨2, ![10000, 128]⟩ (blocked (shapeCast ⟨3, ![16, 625, 10000]⟩ T h1) X W) h2

/-- Entry `i` of what the kernel returns is the layer's entry (i 0, i 1) in the order `(T · X) · W`. -/
theorem kernelResult_apply (h1 : (⟨2, ![10000, 10000]⟩ : Shape).ShapeCasts ⟨3, ![16, 625, 10000]⟩)
    (h2 : (⟨3, ![16, 625, 128]⟩ : Shape).ShapeCasts ⟨2, ![10000, 128]⟩)
    (T : (⟨2, ![10000, 10000]⟩ : Shape).Idx → EReal) (X : (⟨2, ![10000, 128]⟩ : Shape).Idx → EReal)
    (W : (⟨2, ![128, 128]⟩ : Shape).Idx → EReal) (i : (⟨2, ![10000, 128]⟩ : Shape).Idx) :
    kernelResult h1 h2 T X W i = leftFirst T X W ⟨(i 0).val, idx2_lt0 i⟩ ⟨(i 1).val, idx2_lt1 i⟩ := by
  have hi0 := idx2_lt0 i
  have hi1 := idx2_lt1 i
  unfold kernelResult
  refine (shapeCast_apply _ h2 i (ix3 (⟨(i 0).val / 625, by omega⟩ : Fin 16) (⟨(i 0).val % 625, by omega⟩ : Fin 625) (⟨(i 1).val, hi1⟩ : Fin 128)) ?_).trans ?_
  · rw [Shape.rowMajor_val_three, Shape.rowMajor_val_two]
    show ((i 0).val / 625 * 625 + (i 0).val % 625) * 128 + (i 1).val = (i 0).val * 128 + (i 1).val
    omega
  · show blockedAt _ X W _ _ _ = _
    unfold blockedAt leftFirst
    refine Finset.sum_congr rfl fun k _ => congrArg (· * W (ix2 k ⟨(i 1).val, hi1⟩)) (Finset.sum_congr rfl fun j _ => congrArg (· * X (ix2 j k)) ?_)
    refine shapeCast_apply T h1 _ (ix2 ⟨(i 0).val, hi0⟩ j) ?_
    rw [Shape.rowMajor_val_three, Shape.rowMajor_val_two]
    show (i 0).val * 10000 + j.val = ((i 0).val / 625 * 625 + (i 0).val % 625) * 10000 + j.val
    omega

/-- On arguments of real numbers, what the kernel returns is `result`: the same layer in the reference's order. -/
theorem kernelResult_eq_result (h1 : (⟨2, ![10000, 10000]⟩ : Shape).ShapeCasts ⟨3, ![16, 625, 10000]⟩)
    (h2 : (⟨3, ![16, 625, 128]⟩ : Shape).ShapeCasts ⟨2, ![10000, 128]⟩)
    (T : (⟨2, ![10000, 10000]⟩ : Shape).Idx → EReal) (X : (⟨2, ![10000, 128]⟩ : Shape).Idx → EReal)
    (W : (⟨2, ![128, 128]⟩ : Shape).Idx → EReal)
    (hT : ∀ i, ∃ r : ℝ, T i = (r : EReal)) (hX : ∀ i, ∃ r : ℝ, X i = (r : EReal)) (hW : ∀ i, ∃ r : ℝ, W i = (r : EReal)) :
    kernelResult h1 h2 T X W = result T X W :=
  funext fun i => (kernelResult_apply h1 h2 T X W i).trans (leftFirst_eq_rightFirst T X W hT hX hW _ _)

end Cert.GcnAlgebra

end
-- ==== Proof.GcnFinite.lean ====
/-
  From the precondition to real entries. The precondition says, of each of the three argument arrays, that every entry's
  absolute value is below +∞ (an `and` over all entries of the comparison, the three results `and`ed). On the extended reals
  `|x| = max x (−x)`, and `max x (−x) < ⊤` excludes both infinities: the entry is a real number.
-/
import proofs.«126972_g74569222193317_cont_9to1c4b_800_14_alg».proof.Pre_finite_inputs
import Idealize.ShloMosaic.Lib.ReduceAll
import Idealize.ShloMosaic.Lib.ValueIdx
import Idealize.ShloMosaic.PureOps.Ideal.Laws

noncomputable section

namespace Cert.GcnFinite

open Idealize.ShloMosaic Cert.Pre_finite_inputs

/-- An extended real whose absolute value compares below the word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

/-- The scalar shape has one index. -/
instance : Subsingleton S_.Idx := ⟨fun _ _ => funext fun d => d.elim0⟩

/-- Under the precondition every entry of every argument array is a real number. -/
theorem all_real (T : FVec Ideal S10000x10000 .f32) (X : FVec Ideal S10000x128 .f32) (W : FVec Ideal S128x128 .f32)
    (h : fn (F := Ideal) T X W = fun _ => 1#1) :
    (∀ i, ∃ r : ℝ, T i = (r : EReal)) ∧ (∀ i, ∃ r : ℝ, X i = (r : EReal)) ∧ (∀ i, ∃ r : ℝ, W i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)

end Cert.GcnFinite

end
-- ==== Proof.GcnRef.lean ====
/-
  The reference's result is the layer's result in the order `T · (X · W)`: its two host matrix products, each read at an
  entry as the sum over its contracted axis, compose to   Σ_j T[p, j] · (Σ_k X[j, k] · W[k, q])   at entry (p, q).
-/
import proofs.«126972_g74569222193317_cont_9to1c4b_800_14_alg».proof.Proof.Gen.ReferenceIdeal.Read
import proofs.«126972_g74569222193317_cont_9to1c4b_800_14_alg».proof.Proof.GcnAlgebra

noncomputable section

open scoped BigOperators

namespace Cert.ReferenceIdeal.GcnRef

open Cert.ReferenceIdeal Cert.ReferenceIdeal.Read Idealize.ShloMosaic Idealize.ShloMosaic.ValueIdx

/-- The reference's last stage, entry by entry, is `GcnAlgebra.result` of the three arguments. -/
theorem stage_eq_result (T : (⟨S10000x10000, .f32⟩ : BufTy).Contents (Elt Ideal)) (X : (⟨S10000x128, .f32⟩ : BufTy).Contents (Elt Ideal))
    (W : (⟨S128x128, .f32⟩ : BufTy).Contents (Elt Ideal)) :
    val_main_v1 (F := Ideal) T X W = Cert.GcnAlgebra.result T X W := by
  funext i
  rw [val_main_v1_apply]
  unfold Cert.GcnAlgebra.result Cert.GcnAlgebra.rightFirst
  refine Finset.sum_congr rfl fun j _ => ?_
  rw [val_main_v0_apply]
  have e0 : lidx_main_v1 i j = ix2 ⟨(i 0).val, idx2_lt0 i⟩ j := funext fun a => by match a with | ⟨0, _⟩ => rfl | ⟨1, _⟩ => rfl
  rw [e0]
  refine congrArg (T (ix2 ⟨(i 0).val, idx2_lt0 i⟩ j) * ·) (Finset.sum_congr rfl fun k _ => ?_)
  have e1 : lidx_main_v0 (ridx_main_v1 i j) k = ix2 j k := funext fun a => by match a with | ⟨0, _⟩ => rfl | ⟨1, _⟩ => rfl
  have e2 : ridx_main_v0 (ridx_main_v1 i j) k = ix2 k ⟨(i 1).val, idx2_lt1 i⟩ := funext fun a => by match a with | ⟨0, _⟩ => rfl | ⟨1, _⟩ => rfl
  rw [e1, e2]

end Cert.ReferenceIdeal.GcnRef

end
-- ==== Proof.GcnPayload.lean ====
/-
  The kernel body's arithmetic at one entry. One grid step holds a block `a : [1, 625, 10000]` of the row-blocked
  `T`, the whole `X : [10000, 128]` and the whole `W : [128, 128]`; it drops the block's unit axis, multiplies `a · X` on
  the matrix unit into a zero accumulator, multiplies that by `W` into a zero accumulator, and puts the unit axis back.
  At entry (0, r, l) of what it stores this is   Σ_k (Σ_j a[0, r, j] · X[j, k]) · W[k, l]:
  a matrix product into the zero accumulator is the plain sum over the contracted axis, and the two unit-axis casts only
  rename indices.
-/
import proofs.«126972_g74569222193317_cont_9to1c4b_800_14_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.GcnPayload

open Cert.KernelIdeal Cert.KernelIdeal.Gen Idealize.ShloMosaic Idealize.ShloMosaic.ValueIdx

/-! ## The first product's operand indices: `[625, 10000] · [10000, 128]`, contracting axis 1 with axis 0 -/

theorem lhs_tx_0 (i : S625x128.Idx) (q : dot_S625x10000_S10000x128_S625x128_1_0_0_1_n_n.contr.Idx) :
    (dot_S625x10000_S10000x128_S625x128_1_0_0_1_n_n.lhsIdx i q 0).val = (i 0).val := by
  unfold DotDims.lhsIdx
  rw [dif_neg (show ¬(0 : Fin S625x10000.rank) ∈ dot_S625x10000_S10000x128_S625x128_1_0_0_1_n_n.lhsBatch by decide), dif_pos (show (0 : Fin S625x10000.rank) ∈ dot_S625x10000_S10000x128_S625x128_1_0_0_1_n_n.lhsNonContracting by decide)]
  rfl
theorem lhs_tx_1 (i : S625x128.Idx) (q : dot_S625x10000_S10000x128_S625x128_1_0_0_1_n_n.contr.Idx) :
    (dot_S625x10000_S10000x128_S625x128_1_0_0_1_n_n.lhsIdx i q 1).val = (q ⟨0, by decide⟩).val :=
  dot_S625x10000_S10000x128_S625x128_1_0_0_1_n_n.lhsIdx_val_of_single rfl i q
theorem rhs_tx_0 (i : S625x128.Idx) (q : dot_S625x10000_S10000x128_S625x128_1_0_0_1_n_n.contr.Idx) :
    (dot_S625x10000_S10000x128_S625x128_1_0_0_1_n_n.rhsIdx i q 0).val = (q ⟨0, by decide⟩).val :=
  dot_S625x10000_S10000x128_S625x128_1_0_0_1_n_n.rhsIdx_val_of_single rfl i q
theorem rhs_tx_1 (i : S625x128.Idx) (q : dot_S625x10000_S10000x128_S625x128_1_0_0_1_n_n.contr.Idx) :
    (dot_S625x10000_S10000x128_S625x128_1_0_0_1_n_n.rhsIdx i q 1).val = (i 1).val := by
  unfold DotDims.rhsIdx
  rw [dif_neg (show ¬(1 : Fin S10000x128.rank) ∈ dot_S625x10000_S10000x128_S625x128_1_0_0_1_n_n.rhsBatch by decide), dif_pos (show (1 : Fin S10000x128.rank) ∈ dot_S625x10000_S10000x128_S625x128_1_0_0_1_n_n.rhsNonContracting by decide)]
  rfl

/-- `a · X` into the zero accumulator, at entry (r, l): the sum over the 10000 columns of `a`. -/
theorem tx_apply (a : FVec Ideal S625x10000 .f32) (b : FVec Ideal S10000x128 .f32) (r : Fin 625) (l : Fin 128) :
    matmul dot_S625x10000_S10000x128_S625x128_1_0_0_1_n_n none a b (constant S625x128 .f32 0x00000000#32) (ix2 r l)
      = ∑ j : Fin 10000, a (ix2 r j) * b (ix2 j l) := by
  show FloatOps.matmul dot_S625x10000_S10000x128_S625x128_1_0_0_1_n_n none a b (constant S625x128 .f32 0x00000000#32) (ix2 r l) = _
  rw [Ideal.matmul_constant_zero_apply, ← Equiv.sum_comp (contrEquiv1 dot_S625x10000_S10000x128_S625x128_1_0_0_1_n_n 10000 rfl rfl).symm]
  refine Finset.sum_congr rfl fun k _ => ?_
  have hk := contrEquiv1_symm_val dot_S625x10000_S10000x128_S625x128_1_0_0_1_n_n 10000 rfl rfl k
  have el : dot_S625x10000_S10000x128_S625x128_1_0_0_1_n_n.lhsIdx (ix2 r l) ((contrEquiv1 dot_S625x10000_S10000x128_S625x128_1_0_0_1_n_n 10000 rfl rfl).symm k) = ix2 r k := funext fun a => Fin.ext (by
    match a with
    | ⟨0, _⟩ => exact lhs_tx_0 _ _
    | ⟨1, _⟩ => exact (lhs_tx_1 _ _).trans hk)
  have er : dot_S625x10000_S10000x128_S625x128_1_0_0_1_n_n.rhsIdx (ix2 r l) ((contrEquiv1 dot_S625x10000_S10000x128_S625x128_1_0_0_1_n_n 10000 rfl rfl).symm k) = ix2 k l := funext fun a => Fin.ext (by
    match a with
    | ⟨0, _⟩ => exact (rhs_tx_0 _ _).trans hk
    | ⟨1, _⟩ => exact rhs_tx_1 _ _)
  rw [el, er]

/-! ## The second product's operand indices: `[625, 128] · [128, 128]`, contracting axis 1 with axis 0 -/

theorem lhs_w_0 (i : S625x128.Idx) (q : dot_S625x128_S128x128_S625x128_1_0_0_1_n_n.contr.Idx) :
    (dot_S625x128_S128x128_S625x128_1_0_0_1_n_n.lhsIdx i q 0).val = (i 0).val := by
  unfold DotDims.lhsIdx
  rw [dif_neg (show ¬(0 : Fin S625x128.rank) ∈ dot_S625x128_S128x128_S625x128_1_0_0_1_n_n.lhsBatch by decide), dif_pos (show (0 : Fin S625x128.rank) ∈ dot_S625x128_S128x128_S625x128_1_0_0_1_n_n.lhsNonContracting by decide)]
  rfl
theorem lhs_w_1 (i : S625x128.Idx) (q : dot_S625x128_S128x128_S625x128_1_0_0_1_n_n.contr.Idx) :
    (dot_S625x128_S128x128_S625x128_1_0_0_1_n_n.lhsIdx i q 1).val = (q ⟨0, by decide⟩).val :=
  dot_S625x128_S128x128_S625x128_1_0_0_1_n_n.lhsIdx_val_of_single rfl i q
theorem rhs_w_0 (i : S625x128.Idx) (q : dot_S625x128_S128x128_S625x128_1_0_0_1_n_n.contr.Idx) :
    (dot_S625x128_S128x128_S625x128_1_0_0_1_n_n.rhsIdx i q 0).val = (q ⟨0, by decide⟩).val :=
  dot_S625x128_S128x128_S625x128_1_0_0_1_n_n.rhsIdx_val_of_single rfl i q
theorem rhs_w_1 (i : S625x128.Idx) (q : dot_S625x128_S128x128_S625x128_1_0_0_1_n_n.contr.Idx) :
    (dot_S625x128_S128x128_S625x128_1_0_0_1_n_n.rhsIdx i q 1).val = (i 1).val := by
  unfold DotDims.rhsIdx
  rw [dif_neg (show ¬(1 : Fin S128x128.rank) ∈ dot_S625x128_S128x128_S625x128_1_0_0_1_n_n.rhsBatch by decide), dif_pos (show (1 : Fin S128x128.rank) ∈ dot_S625x128_S128x128_S625x128_1_0_0_1_n_n.rhsNonContracting by decide)]
  rfl

/-- `v · W` into the zero accumulator, at entry (r, l): the sum over the 128 columns of `v`. -/
theorem w_apply (a : FVec Ideal S625x128 .f32) (b : FVec Ideal S128x128 .f32) (r : Fin 625) (l : Fin 128) :
    matmul dot_S625x128_S128x128_S625x128_1_0_0_1_n_n none a b (constant S625x128 .f32 0x00000000#32) (ix2 r l)
      = ∑ k : Fin 128, a (ix2 r k) * b (ix2 k l) := by
  show FloatOps.matmul dot_S625x128_S128x128_S625x128_1_0_0_1_n_n none a b (constant S625x128 .f32 0x00000000#32) (ix2 r l) = _
  rw [Ideal.matmul_constant_zero_apply, ← Equiv.sum_comp (contrEquiv1 dot_S625x128_S128x128_S625x128_1_0_0_1_n_n 128 rfl rfl).symm]
  refine Finset.sum_congr rfl fun k _ => ?_
  have hk := contrEquiv1_symm_val dot_S625x128_S128x128_S625x128_1_0_0_1_n_n 128 rfl rfl k
  have el : dot_S625x128_S128x128_S625x128_1_0_0_1_n_n.lhsIdx (ix2 r l) ((contrEquiv1 dot_S625x128_S128x128_S625x128_1_0_0_1_n_n 128 rfl rfl).symm k) = ix2 r k := funext fun a => Fin.ext (by
    match a with
    | ⟨0, _⟩ => exact lhs_w_0 _ _
    | ⟨1, _⟩ => exact (lhs_w_1 _ _).trans hk)
  have er : dot_S625x128_S128x128_S625x128_1_0_0_1_n_n.rhsIdx (ix2 r l) ((contrEquiv1 dot_S625x128_S128x128_S625x128_1_0_0_1_n_n 128 rfl rfl).symm k) = ix2 k l := funext fun a => Fin.ext (by
    match a with
    | ⟨0, _⟩ => exact (rhs_w_0 _ _).trans hk
    | ⟨1, _⟩ => exact rhs_w_1 _ _)
  rw [el, er]

/-! ## The stored block at an entry -/

/-- What the body stores, at entry (0, r, l): the block's row `r` times `X`, then times column `l` of `W`. -/
theorem pay_apply (x0 : Vec Ideal S1x625x10000 .f32) (x1 : Vec Ideal S10000x128 .f32) (x2 : Vec Ideal S128x128 .f32)
    (z : Fin 1) (r : Fin 625) (l : Fin 128) :
    k0_pay1 x0 x1 x2 (ix3 z r l) = ∑ k : Fin 128, (∑ j : Fin 10000, x0 (ix3 z r j) * x1 (ix2 j k)) * x2 (ix2 k l) := by
  obtain rfl : z = 0 := Subsingleton.elim _ _
  unfold k0_pay1
  refine (shapeCast_addUnit_apply ![625, 128] _ _ (ix3 0 r l)).trans ?_
  have e : (fun a : Fin 2 => (ix3 (0 : Fin 1) r l : S1x625x128.Idx) a.succ) = ix2 r l :=
    funext fun a => by match a with | ⟨0, _⟩ => rfl | ⟨1, _⟩ => rfl
  rw [e, w_apply]
  refine Finset.sum_congr rfl fun k _ => ?_
  rw [tx_apply]
  refine congrArg (· * x2 (ix2 k l)) (Finset.sum_congr rfl fun j _ => ?_)
  refine congrArg (· * x1 (ix2 j k)) ?_
  refine (shapeCast_dropUnit_apply ![625, 10000] x0 _ (ix2 r j)).trans (congrArg x0 ?_)
  funext a
  match a with
  | ⟨0, _⟩ => rfl
  | ⟨1, _⟩ => rfl
  | ⟨2, _⟩ => rfl

end Cert.KernelIdeal.GcnPayload

end
-- ==== Proof.GcnValue.lean ====
/-
  What the idealized kernel leaves in its result. The grid has 16 steps; step `t` fetches row block `t` of the row-blocked
  `T` (window 0), has the whole `X` and `W` resident (windows 1 and 2), and writes block `t` of the `[16, 625, 128]` output
  (window 3). Each written block is that block of ONE function of the arrays the region found (`GcnAlgebra.blocked`), the 16
  blocks tile the output, so the output array ends holding that function; the host line before the region makes the
  row-blocked `T` from `T` and the host line after it flattens the output: the program returns `GcnAlgebra.kernelResult`.
-/
import proofs.«126972_g74569222193317_cont_9to1c4b_800_14_alg».proof.Proof.Gen.KernelIdeal.Frame
import proofs.«126972_g74569222193317_cont_9to1c4b_800_14_alg».proof.Proof.GcnPayload
import proofs.«126972_g74569222193317_cont_9to1c4b_800_14_alg».proof.Proof.GcnLayout
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.GcnValue

open Cert.KernelIdeal Cert.KernelIdeal.Gen Idealize.ShloMosaic.ValueIdx Cert.GcnAlgebra

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: step `t` is at block `t` of the row-blocked `T` and of the output, and at the one
    block of `X` and of `W`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The arrays the region finds, at their literal types. -/
abbrev Tb (c : Dev nD) : S16x625x10000.Idx → EReal := V m c main_v0
abbrev Xa (c : Dev nD) : S10000x128.Idx → EReal := V m c main_arg1
abbrev Wa (c : Dev nD) : S128x128.Idx → EReal := V m c main_arg2

/-- Step `t`'s block of window 0 is block `t` of the row-blocked `T`. -/
theorem blk_T (c : Dev nD) (t : Fin cfg0.N) (g : Fin 16) (hg : g.val = t.val) (z : Fin 1) (r : Fin 625) (j : Fin 10000) :
    (iblk m c 0 t : Vec Ideal S1x625x10000 .f32) (ix3 z r j) = Tb m c (ix3 g r j) := by
  obtain ⟨e0, e1, e2, -⟩ := idx_facts t
  unfold iblk
  rw [View.read_apply]
  show V m c main_v0 _ = V m c main_v0 _
  congr 1
  funext a
  apply Fin.ext
  have hz := z.isLt
  match a with
  | ⟨0, _⟩ => show win0_0.index t (0 : Fin 3) * 1 + 1 * z.val = g.val; omega
  | ⟨1, _⟩ => show win0_0.index t (1 : Fin 3) * 625 + 1 * r.val = r.val; omega
  | ⟨2, _⟩ => show win0_0.index t (2 : Fin 3) * 10000 + 1 * j.val = j.val; omega

/-- Step `t`'s block of window 1 is all of `X`. -/
theorem blk_X (c : Dev nD) (t : Fin cfg0.N) (j : Fin 10000) (k : Fin 128) :
    (iblk m c 1 t : Vec Ideal S10000x128 .f32) (ix2 j k) = Xa m c (ix2 j k) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 10000 + 1 * j.val = j.val; omega
  | ⟨1, _⟩ => show win0_1.index t (1 : Fin 2) * 128 + 1 * k.val = k.val; omega

/-- Step `t`'s block of window 2 is all of `W`. -/
theorem blk_W (c : Dev nD) (t : Fin cfg0.N) (k : Fin 128) (l : Fin 128) :
    (iblk m c 2 t : Vec Ideal S128x128 .f32) (ix2 k l) = Wa m c (ix2 k l) := by
  obtain ⟨-, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 128 + 1 * k.val = k.val; omega
  | ⟨1, _⟩ => show win0_2.index t (1 : Fin 2) * 128 + 1 * l.val = l.val; omega

/-- The body's result on blocks that are block `g` of `A`, all of `X` and all of `W`, at an entry, is the blocked result at the
    entry of block `g` with the same row and column. -/
theorem body_value (x0 : Vec Ideal S1x625x10000 .f32) (x1 : Vec Ideal S10000x128 .f32) (x2 : Vec Ideal S128x128 .f32)
    (A : S16x625x10000.Idx → EReal) (X : S10000x128.Idx → EReal) (W : S128x128.Idx → EReal) (g : Fin 16)
    (h0 : ∀ (z : Fin 1) (r : Fin 625) (j : Fin 10000), x0 (ix3 z r j) = A (ix3 g r j))
    (h1 : ∀ (j : Fin 10000) (k : Fin 128), x1 (ix2 j k) = X (ix2 j k))
    (h2 : ∀ (k l : Fin 128), x2 (ix2 k l) = W (ix2 k l))
    (y : S1x625x128.Idx) (i : S16x625x128.Idx) (hi0 : (i 0).val = g.val) (hi1 : (i 1).val = (y 1).val) (hi2 : (i 2).val = (y 2).val) :
    k0_pay1 x0 x1 x2 y = blocked A X W i := by
  obtain ⟨z, r, l, rfl⟩ : ∃ (z : Fin 1) (r : Fin 625) (l : Fin 128), y = ix3 z r l := ⟨y 0, y 1, y 2, eq_ix3 y⟩
  obtain ⟨g', r', l', rfl⟩ : ∃ (g' : Fin 16) (r' : Fin 625) (l' : Fin 128), i = ix3 g' r' l' := ⟨i 0, i 1, i 2, eq_ix3 i⟩
  obtain rfl : g' = g := Fin.ext hi0
  obtain rfl : r' = r := Fin.ext hi1
  obtain rfl : l' = l := Fin.ext hi2
  rw [GcnPayload.pay_apply]
  show _ = blockedAt A X W g' r' l'
  unfold blockedAt
  refine Finset.sum_congr rfl fun k _ => ?_
  rw [h2]
  refine congrArg (· * W (ix2 k l')) (Finset.sum_congr rfl fun j _ => ?_)
  rw [h0, h1]

/-- WHAT STEP `t` WRITES BACK is block `t` of the blocked result of the arrays the region found. -/
theorem flushed_eq (c : Dev nD) (t : Fin cfg0.N) :
    (dats m 0 c).flushed 3 t = ((cfg0.win 3).blk t).view.read (Elt Ideal) (blocked (Tb m c) (Xa m c) (Wa m c)) := by
  have ht : t.val < 16 := Nat.lt_of_lt_of_eq t.isLt N_0
  obtain ⟨-, -, -, -, -, -, -, e0, e1, e2⟩ := idx_facts t
  show (cfg0.win 3).cut (grid0.coords t) ((dats m 0 c).after 3 t) = _
  rw [after0_3]
  unfold out0_3
  rw [View.canon_unit_zero hz3]
  simp only [View.ld_unit_zero (S := S1x625x10000) hz3, View.ld_unit_zero (S := S10000x128) hz2, View.ld_unit_zero (S := S128x128) hz2]
  funext y
  refine body_value (iblk m c 0 t) (iblk m c 1 t) (iblk m c 2 t) (Tb m c) (Xa m c) (Wa m c) ⟨t.val, ht⟩
    (fun z r j => blk_T m c t ⟨t.val, ht⟩ rfl z r j) (fun j k => blk_X m c t j k) (fun k l => blk_W m c t k l) y _ ?_ ?_ ?_
  · show win0_3.index t (0 : Fin 3) * 1 + 1 * (y 0).val = t.val
    have hy : (y 0).val < 1 := (y 0).isLt
    omega
  · show win0_3.index t (1 : Fin 3) * 625 + 1 * (y 1).val = (y 1).val
    omega
  · show win0_3.index t (2 : Fin 3) * 128 + 1 * (y 2).val = (y 2).val
    omega

/-- An index of the output array is in step `t`'s block iff each coordinate is in the block's range on its axis. -/
theorem mem_blk3 (t : Fin cfg0.N) (i : S16x625x128.Idx) :
    i ∈ ((cfg0.win 3).blk t).view.set ↔ ∀ a : Fin 3, win0_3.index t a * S1x625x128.size a ≤ (i a).val ∧ (i a).val < win0_3.index t a * S1x625x128.size a + S1x625x128.size a := by
  show i ∈ ((View.whole main_v1).slice (win0_3.rect t)).set ↔ _
  rw [View.set_slice_whole, Rect.mem_set_unit]
  exact Iff.rfl

/-- THE OUTPUT ARRAY after the run: the 16 blocks tile it (index `i` is in step `i 0`'s block), so it holds the blocked result. -/
theorem final3 (c : Dev nD) : (dats m 0 c).arrAt 3 cfg0.N = blocked (Tb m c) (Xa m c) (Wa m c) :=
  (dats m 0 c).arrAt_eq_of_cover 3 (blocked (Tb m c) (Xa m c) (Wa m c)) (fun t _ => flushed_eq m c t) fun i => by
    have h0 : ((i : S16x625x128.Idx) 0).val < 16 := (i 0).isLt
    have h1 : ((i : S16x625x128.Idx) 1).val < 625 := (i 1).isLt
    have h2 : ((i : S16x625x128.Idx) 2).val < 128 := (i 2).isLt
    have ht : ((i : S16x625x128.Idx) 0).val < cfg0.N := Nat.lt_of_lt_of_eq h0 N_0.symm
    obtain ⟨-, -, -, -, -, -, -, e0, e1, e2⟩ := idx_facts ⟨((i : S16x625x128.Idx) 0).val, ht⟩
    have e0' : win0_3.index ⟨((i : S16x625x128.Idx) 0).val, ht⟩ (0 : Fin 3) = ((i : S16x625x128.Idx) 0).val := e0
    refine ⟨⟨((i : S16x625x128.Idx) 0).val, ht⟩, flush0_3 _, ?_⟩
    rw [mem_blk3]
    intro a
    match a with
    | ⟨0, _⟩ => show win0_3.index _ (0 : Fin 3) * 1 ≤ (i 0).val ∧ (i 0).val < win0_3.index _ (0 : Fin 3) * 1 + 1; rw [e0']; omega
    | ⟨1, _⟩ => show win0_3.index _ (1 : Fin 3) * 625 ≤ (i 1).val ∧ (i 1).val < win0_3.index _ (1 : Fin 3) * 625 + 625; rw [e1]; omega
    | ⟨2, _⟩ => show win0_3.index _ (2 : Fin 3) * 128 ≤ (i 2).val ∧ (i 2).val < win0_3.index _ (2 : Fin 3) * 128 + 128; rw [e2]; omega

/-- The host line before the region: the row-blocked `T` is `T` viewed as `[16, 625, 10000]`. -/
theorem Tb_eq (c : Dev nD) :
    Tb m c = shapeCast S16x625x10000 (m ((c : Thread nD τ).loc main_arg0)) shapeCasts_S10000x10000_S16x625x10000 := by
  show StableHlo.after hostOps0 (fun b => m (c, b)) (Proc.devRef .tc main_v0) = _
  after_results
  rfl

/-- The host line after the region: the program's result is the output array viewed as `[10000, 128]`. -/
theorem tail_eq (c : Dev nD) :
    Pipeline.afterTail₀ cfgs (dats m) 0 (V0 m) [hostOps1] c main_v2
      = shapeCast S10000x128 ((dats m 0 c).arrAt 3 cfg0.N) shapeCasts_S16x625x128_S10000x128 := by
  unfold Pipeline.afterTail₀
  show StableHlo.after hostOps1 _ (Proc.devRef .tc main_v2) = _
  after_results
  exact congrArg (fun Z => shapeCast S10000x128 Z shapeCasts_S16x625x128_S10000x128)
    (Pipeline.withArrays_arr spec0 launch0.win.arr_inj c (V0 m c) (fun w => (dats m 0 c).arrAt w cfg0.N) 3)

/-- What the program returns, as a function of its three arguments as launched. -/
theorem returned_eq (c : Dev nD) :
    Pipeline.afterTail₀ cfgs (dats m) 0 (V0 m) [hostOps1] c main_v2
      = kernelResult shapeCasts_S10000x10000_S16x625x10000 shapeCasts_S16x625x128_S10000x128
          (m ((c.tc : Thread nD τ).loc main_arg0)) (m ((c.tc : Thread nD τ).loc main_arg1)) (m ((c.tc : Thread nD τ).loc main_arg2)) := by
  rw [tail_eq, final3, Tb_eq]
  unfold kernelResult
  show shapeCast S10000x128 (blocked _ (V m c main_arg1) (V m c main_arg2)) _ = _
  rw [V_main_arg1, V_main_arg2]

/-- THE RUN, READ: every weakly fair execution ends with the result at `kernelResult` of the arguments, the arguments unchanged. -/
theorem run : θ_run defs (onTc (τ := τ) (main (F := Ideal))) ⟨m, fun _ => 0, ρ⟩ fun r => ∀ c : Dev nD,
      r.2.mem ((c.tc : Thread nD τ).loc main_v2)
        = kernelResult shapeCasts_S10000x10000_S16x625x10000 shapeCasts_S16x625x128_S10000x128
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v2 (Pipeline.mem_restRefs_of main_v2 (by decide) (by decide))).trans (returned_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.GcnValue

end
-- ==== Proof.lean ====
/-
  The proof of `Cert.Claim` for one graph-convolution layer `out = T · X · W` (`T : [10000, 10000]`, `X : [10000, 128]`,
  `W : [128, 128]`, all finite).

  The kernel walks 16 row blocks of `T`; each step multiplies its `[625, 10000]` block by the resident `X` and the product by
  the resident `W`: entry (p, q) of what it returns is   Σ_k (Σ_j T[p, j] · X[j, k]) · W[k, q].
  The reference multiplies `X` by `W` first: entry (p, q) is   Σ_j T[p, j] · (Σ_k X[j, k] · W[k, q]).
  The two are equal by associativity of the matrix product, which on the extended reals needs distributivity and hence finite
  entries: that is what the precondition gives (every entry's absolute value is below +∞), and where it is used.

  The three frames are the generated frame runs (the reference's is its generated run with the result dropped); the idealization
  rewrote nothing, so `preserves` is trivial; `algebraic` puts the kernel's run (the blocked result of the arrays the region
  found, through the two host reshapes) and the reference's run (its two products read entry by entry) at one function of the
  arguments, `GcnAlgebra.result`.
-/
import proofs.«126972_g74569222193317_cont_9to1c4b_800_14_alg».proof.Defs
import proofs.«126972_g74569222193317_cont_9to1c4b_800_14_alg».proof.Proof.Gen.Kernel
import proofs.«126972_g74569222193317_cont_9to1c4b_800_14_alg».proof.Proof.Gen.Kernel.Skeleton
import proofs.«126972_g74569222193317_cont_9to1c4b_800_14_alg».proof.Proof.Gen.Kernel.Launch
import proofs.«126972_g74569222193317_cont_9to1c4b_800_14_alg».proof.Proof.Gen.Kernel.Points
import proofs.«126972_g74569222193317_cont_9to1c4b_800_14_alg».proof.Proof.Gen.Kernel.Frame
import proofs.«126972_g74569222193317_cont_9to1c4b_800_14_alg».proof.Proof.Gen.KernelIdeal
import proofs.«126972_g74569222193317_cont_9to1c4b_800_14_alg».proof.Proof.Gen.KernelIdeal.Skeleton
import proofs.«126972_g74569222193317_cont_9to1c4b_800_14_alg».proof.Proof.Gen.KernelIdeal.Launch
import proofs.«126972_g74569222193317_cont_9to1c4b_800_14_alg».proof.Proof.Gen.KernelIdeal.Points
import proofs.«126972_g74569222193317_cont_9to1c4b_800_14_alg».proof.Proof.Gen.KernelIdeal.Frame
import proofs.«126972_g74569222193317_cont_9to1c4b_800_14_alg».proof.Proof.Gen.ReferenceIdeal
import proofs.«126972_g74569222193317_cont_9to1c4b_800_14_alg».proof.Proof.Gen.Pre_finite_inputs
import proofs.«126972_g74569222193317_cont_9to1c4b_800_14_alg».proof.Proof.Gen.ReferenceIdeal.Run
import proofs.«126972_g74569222193317_cont_9to1c4b_800_14_alg».proof.Proof.Gen.ReferenceIdeal.Read
import proofs.«126972_g74569222193317_cont_9to1c4b_800_14_alg».proof.Proof.GcnAlgebra
import proofs.«126972_g74569222193317_cont_9to1c4b_800_14_alg».proof.Proof.GcnLayout
import proofs.«126972_g74569222193317_cont_9to1c4b_800_14_alg».proof.Proof.GcnFinite
import proofs.«126972_g74569222193317_cont_9to1c4b_800_14_alg».proof.Proof.GcnRef
import proofs.«126972_g74569222193317_cont_9to1c4b_800_14_alg».proof.Proof.GcnValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at `GcnAlgebra.result` of the arguments: the kernel by its run and
    associativity on the finite entries the precondition gives, the reference by its two products read entry by entry. -/
theorem algebraic : Cert.algebraic_KernelIdeal_ReferenceIdeal := by
  intro m ρ m' ρ' hpre hagree
  refine ⟨fun c => Cert.GcnAlgebra.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.GcnValue.run m ρ)
    obtain ⟨hT, hX, hW⟩ := Cert.GcnFinite.all_real _ _ _ (hpre c)
    exact Cert.GcnAlgebra.kernelResult_eq_result _ _ _ _ _ hT hX hW
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.GcnRef.stage_eq_result,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
